-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128x10 .f32) (main_arg6 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) (main_arg5 : FVec F S128x10 .f32) (main_arg6 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S50000x10 : Shape := ⟨2, ![50000, 10]⟩
abbrev S5000x10 : Shape := ⟨2, ![5000, 10]⟩
abbrev S1600000x10 : Shape := ⟨2, ![1600000, 10]⟩
abbrev S1x10 : Shape := ⟨2, ![1, 10]⟩
abbrev S5000 : Shape := ⟨1, ![5000]⟩

abbrev nBuf : Space → Nat
  | .hbm => 88
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S128x128, .bf16⟩
  | .hbm, ⟨49, _⟩ => ⟨S128x10, .bf16⟩
  | .hbm, ⟨50, _⟩ => ⟨S50000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x10, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x10, .f32⟩
  | .hbm, ⟨79, _⟩ => ⟨S1600000x1, .f32⟩
  | .hbm, ⟨80, _⟩ => ⟨S1600000x10, .f32⟩
  | .hbm, ⟨81, _⟩ => ⟨S1600000x10, .f32⟩
  | .hbm, ⟨82, _⟩ => ⟨S_, .f32⟩
  | .hbm, ⟨83, _⟩ => ⟨S50000x10, .f32⟩
  | .hbm, ⟨84, _⟩ => ⟨S1600000x1, .i32⟩
  | .hbm, ⟨85, _⟩ => ⟨S50000x10, .f32⟩
  | .hbm, ⟨86, _⟩ => ⟨S1x10, .f32⟩
  | .hbm, ⟨87, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x10, .bf16⟩
  | .local _ .vmem, ⟨17, _⟩ => ⟨S5000x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S5000x10, .f32⟩
  | .local _ .vmem, ⟨22, _⟩ => ⟨S5000x10, .f32⟩
  | .local _ .vmem, ⟨23, _⟩ => ⟨S5000x1, .f32⟩
  | .local _ .vmem, ⟨24, _⟩ => ⟨S5000x1, .f32⟩
  | .local _ .vmem, ⟨25, _⟩ => ⟨S1x10, .f32⟩
  | .local _ .vmem, ⟨26, _⟩ => ⟨S5000x10, .f32⟩
  | .local _ .vmem, ⟨27, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S_S1600000 : S_.BroadcastsInDim S1600000 (![] : Fin 0 → Fin S1600000.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S5000x10_S5000x10_0_0 : ∀ a, (![0, 0] : Fin 2 → Nat) a + S5000x10.size a ≤ S5000x10.size a
  h_S5000x10 : 0 < S5000x10.numel
  bcast_S1600000x1_S1600000x10_0_1 : S1600000x1.BroadcastsInDim S1600000x10 (![0, 1] : Fin 2 → Fin S1600000x10.rank)
  bcast_S_S50000x10 : S_.BroadcastsInDim S50000x10 (![] : Fin 0 → Fin S50000x10.rank)
  shapeCasts_S10_S1x10 : S10.ShapeCasts S1x10
  shapeCasts_S5000x10_S5000x10 : S5000x10.ShapeCasts S5000x10
  broadcasts_S5000x1_S5000x10 : S5000x1.Broadcasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x10_S5000x10_1_0_0_1_n_n_wf : DotDims.WF S5000x128 S128x10 S5000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .bf16 = 32 ∨ (Rect.block (s := S128x10) S128x10.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S50000x10.size a
  hwx2_2 : ∀ i : grid2.Coords, EltTy.bits .f32 = 32 ∨ (Rect.block (s := S50000x10) S5000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S50000x10.size a
  hwx3_0 : ∀ i : grid3.Coords, EltTy.bits .f32 = 32 ∨ (Rect.block (s := S50000x10) S5000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x10.size a ≤ S50000x10.size a
  hwx3_1 : ∀ i : grid3.Coords, EltTy.bits .f32 = 32 ∨ (Rect.block (s := S50000x10) S5000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x10.size a ≤ S50000x10.size a
  hwx3_4 : ∀ i : grid3.Coords, EltTy.bits .f32 = 32 ∨ (Rect.block (s := S50000x10) S5000x10.size (cc3_transform_4 i) (hinb3_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x10 : Shape := ⟨2, ![50000, 10]⟩
abbrev S1600000x10 : Shape := ⟨2, ![1600000, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S128x128, .f32⟩
  | 4 => ⟨S128, .f32⟩
  | 5 => ⟨S128x10, .f32⟩
  | 6 => ⟨S10, .f32⟩
  | 7 => ⟨S1x1600000, .i32⟩
  | 8 => ⟨S1600000, .i32⟩
  | 9 => ⟨S1x1600000, .i32⟩
  | 10 => ⟨S1600000, .i32⟩
  | 11 => ⟨S50000x128, .f32⟩
  | 12 => ⟨S_, .f32⟩
  | 13 => ⟨S50000, .f32⟩
  | 14 => ⟨S1600000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S50000x128, .f32⟩
  | 61 => ⟨S1600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x10, .f32⟩
  | 75 => ⟨S_, .f32⟩
  | 76 => ⟨S50000, .f32⟩
  | 77 => ⟨S1600000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x10, .f32⟩
  | 119 => ⟨S1600000x1, .f32⟩
  | 120 => ⟨S1600000x10, .f32⟩
  | 121 => ⟨S1600000x10, .f32⟩
  | 122 => ⟨S_, .f32⟩
  | 123 => ⟨S50000x10, .f32⟩
  | 124 => ⟨S1600000x1, .i32⟩
  | 125 => ⟨S50000x10, .f32⟩
  | 126 => ⟨S50000, .f32⟩
  | 127 => ⟨S50000x1, .f32⟩
  | _ => ⟨S50000x128, .f32⟩

abbrev hbmTy0_1 (i : Nat) : BufTy := match i % 128 with
  | 0 => ⟨S50000x10, .f32⟩
  | 1 => ⟨S50000x10, .f32⟩
  | 2 => ⟨S50000x10, .f32⟩
  | 3 => ⟨S1x10, .f32⟩
  | 4 => ⟨S50000x10, .f32⟩
  | 5 => ⟨S50000x10, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x10, .f32⟩
  | 13 => ⟨S50000x10, .f32⟩
  | 14 => ⟨S50000x10, .f32⟩
  | 15 => ⟨S_, .f32⟩
  | 16 => ⟨S50000, .f32⟩
  | 17 => ⟨S50000x1, .f32⟩
  | 18 => ⟨S50000x1, .f32⟩
  | 19 => ⟨S50000x10, .f32⟩
  | 20 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x10_0_1 : S1600000x1.BroadcastsInDim S1600000x10 (![0, 1] : Fin 2 → Fin S1600000x10.rank)
  bcast_S_S50000x10 : S_.BroadcastsInDim S50000x10 (![] : Fin 0 → Fin S50000x10.rank)
  bcast_S50000x1_S50000x10_0_1 : S50000x1.BroadcastsInDim S50000x10 (![0, 1] : Fin 2 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x10_S50000x10_1_0_0_1_n_n_wf : DotDims.WF S50000x128 S128x10 S50000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf

class Facts : Prop extends Facts₀ where

variable [Facts]
-- ==== Proof.Spec.lean ====
/-
  The graph convolution network both programs compute, written once as a composition of whole-array operations.

  An edge list `adj` has a row of source nodes and a row of destination nodes; `ew` weighs the edges. A node's degree is
  one (its self loop) plus the weights of the edges that end in it; `dinv` is its inverse square root where the degree
  is positive and zero elsewhere; an edge's coefficient `norm` is its weight times `dinv` of both its ends. One layer
  sends node features `xw` (already multiplied by the layer's weight matrix) to
      agg + xw · dinv² + b,      agg = the sum, over the edges ending in a node, of coefficient × features of the source,
  the first layer followed by the rectifier, the second by the logarithm of the softmax along each row.
-/
import proofs.«109081_j23347442221163_1_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- A float array of a shape over the float family `F`, and an array of 32-bit integers. -/
local notation "FA" => FVec F
abbrev IA (S : Shape) := IVec S 32

/-! ## The graph's own quantities -/

/-- The edges' source nodes: row 0 of the edge list. -/
def src (adj : IA S2x1600000) : IA S1600000 :=
  shapeCast _ (extractStridedSlice S1x1600000 ![0, 0] adj slices_S2x1600000_S1x1600000_0_0) shapeCasts_S1x1600000_S1600000

/-- The edges' destination nodes: row 1 of the edge list. -/
def dst (adj : IA S2x1600000) : IA S1600000 :=
  shapeCast _ (extractStridedSlice S1x1600000 ![1, 0] adj slices_S2x1600000_S1x1600000_1_0) shapeCasts_S1x1600000_S1600000

/-- A node number below zero counts from the end: 50000 is added to it. -/
def wrap (i : IA S1600000) : IA S1600000 :=
  select (cmpi .slt i (broadcastInDim S1600000 ![] bcast_S_S1600000 (constantI S_ 32 0#32)))
    (addi i (broadcastInDim S1600000 ![] bcast_S_S1600000 (constantI S_ 32 50000#32))) i

/-- A vector of node numbers as a column of one-entry index vectors. -/
def col (i : IA S1600000) : IA S1600000x1 := broadcastInDim S1600000x1 ![0] bcast_S1600000_S1600000x1_0 i

/-- A node's degree: one for its self loop plus the weights of the edges ending in it. -/
def deg (d : IA S1600000) (ew : FA S1600000 .f32) : FA S50000 .f32 :=
  addf (Host.scatterAdd scatter_S50000_S1600000x1_S1600000_n_0_0_1
      (broadcastInDim S50000 ![] bcast_S_S50000 (constant S_ .f32 0x00000000#32)) (col d) ew)
    (broadcastInDim S50000 ![] bcast_S_S50000 (constant S_ .f32 0x3F800000#32))

/-- The inverse square root of the degree where it is positive, zero elsewhere. -/
def dinv (d : IA S1600000) (ew : FA S1600000 .f32) : FA S50000 .f32 :=
  select (cmpf .ogt (deg d ew) (broadcastInDim S50000 ![] bcast_S_S50000 (constant S_ .f32 0x00000000#32)))
    (Host.rsqrt (deg d ew))
    (broadcastInDim S50000 ![] bcast_S_S50000 (id (constant S_ .f32 0x00000000#32)))

/-- An edge's coefficient: `dinv` of its source, times its weight, times `dinv` of its destination. -/
def norm (s d : IA S1600000) (ew : FA S1600000 .f32) : FA S1600000 .f32 :=
  mulf (mulf (Host.gather gather_S50000_S1600000x1_S1600000_n_0_n_n_0_1_1 (dinv d ew) (col (wrap s))) ew)
    (Host.gather gather_S50000_S1600000x1_S1600000_n_0_n_n_0_1_1 (dinv d ew) (col (wrap d)))

/-- `dinv²` as a column, one entry per node. -/
def dcol (dv : FA S50000 .f32) : FA S50000x1 .f32 := broadcastInDim S50000x1 ![0] bcast_S50000_S50000x1_0 (mulf dv dv)

/-! ## The first layer: 128 features -/

/-- The product with the first weight matrix. -/
def mm128 (x : FA S50000x128 .f32) (w : FA S128x128 .f32) : FA S50000x128 .f32 :=
  Host.dotGeneral dot_S50000x128_S128x128_S50000x128_1_0_0_1_n_n none x w

/-- Each node's sum over the edges ending in it of coefficient × the source's features. -/
def agg128 (xw : FA S50000x128 .f32) (s d : IA S1600000) (nrm : FA S1600000 .f32) : FA S50000x128 .f32 :=
  Host.scatterAdd scatter_S50000x128_S1600000x1_S1600000x128_1_0_0_1
    (broadcastInDim S50000x128 ![] bcast_S_S50000x128 (constant S_ .f32 0x00000000#32)) (col d)
    (mulf (Host.gather gather_S50000x128_S1600000x1_S1600000x128_1_0_n_n_0_1_1128 xw (col (wrap s)))
      (broadcastInDim S1600000x128 ![0, 1] bcast_S1600000x1_S1600000x128_0_1
        (broadcastInDim S1600000x1 ![0] bcast_S1600000_S1600000x1_0 nrm)))

/-- The bias as a row. -/
def brow128 (b : FA S128 .f32) : FA S1x128 .f32 := broadcastInDim S1x128 ![1] bcast_S128_S1x128_1 b

/-- `agg + xw · dinv² + b`, the column and the row each repeated over the array. -/
def comb128 (agg xw : FA S50000x128 .f32) (dc : FA S50000x1 .f32) (br : FA S1x128 .f32) : FA S50000x128 .f32 :=
  addf (addf agg (mulf xw (broadcastInDim S50000x128 ![0, 1] bcast_S50000x1_S50000x128_0_1 dc)))
    (broadcastInDim S50000x128 ![0, 1] bcast_S1x128_S50000x128_0_1 br)

/-- The rectifier: the maximum with zero. -/
def relu128 (y : FA S50000x128 .f32) : FA S50000x128 .f32 :=
  maximumf y (broadcastInDim S50000x128 ![] bcast_S_S50000x128 (constant S_ .f32 0x00000000#32))

/-! ## The second layer: 10 features -/

def mm10 (h : FA S50000x128 .f32) (w : FA S128x10 .f32) : FA S50000x10 .f32 :=
  Host.dotGeneral dot_S50000x128_S128x10_S50000x10_1_0_0_1_n_n none h w

def agg10 (xw : FA S50000x10 .f32) (s d : IA S1600000) (nrm : FA S1600000 .f32) : FA S50000x10 .f32 :=
  Host.scatterAdd scatter_S50000x10_S1600000x1_S1600000x10_1_0_0_1
    (broadcastInDim S50000x10 ![] bcast_S_S50000x10 (constant S_ .f32 0x00000000#32)) (col d)
    (mulf (Host.gather gather_S50000x10_S1600000x1_S1600000x10_1_0_n_n_0_1_110 xw (col (wrap s)))
      (broadcastInDim S1600000x10 ![0, 1] bcast_S1600000x1_S1600000x10_0_1
        (broadcastInDim S1600000x1 ![0] bcast_S1600000_S1600000x1_0 nrm)))

def brow10 (b : FA S10 .f32) : FA S1x10 .f32 := broadcastInDim S1x10 ![1] bcast_S10_S1x10_1 b

def comb10 (agg xw : FA S50000x10 .f32) (dc : FA S50000x1 .f32) (br : FA S1x10 .f32) : FA S50000x10 .f32 :=
  addf (addf agg (mulf xw (broadcastInDim S50000x10 ![0, 1] bcast_S50000x1_S50000x10_0_1 dc)))
    (broadcastInDim S50000x10 ![0, 1] bcast_S1x10_S50000x10_0_1 br)

/-- The row maximum, kept as a column and repeated along the row. The maximum of a row is first taken from minus
    infinity and then once more against minus infinity. -/
def rowmax10 (y : FA S50000x10 .f32) : FA S50000x10 .f32 :=
  broadcastInDim S50000x10 ![0, 1] bcast_S50000x1_S50000x10_0_1
    (broadcastInDim S50000x1 ![0] bcast_S50000_S50000x1_0
      (maximumf (broadcastInDim S50000 ![] bcast_S_S50000 (constant S_ .f32 0xFF800000#32))
        (Host.reduce FloatOps.maximumf y (constant S_ .f32 0xFF800000#32) reducesTo_S50000x10_S50000_d1 h_S_)))

/-- The logarithm of the softmax along each row: with `z = y − max`, it is `z − log Σ exp z`. -/
def lsm10 (y : FA S50000x10 .f32) : FA S50000x10 .f32 :=
  subf (subf y (rowmax10 y))
    (broadcastInDim S50000x10 ![0, 1] bcast_S50000x1_S50000x10_0_1
      (Host.log (broadcastInDim S50000x1 ![0] bcast_S50000_S50000x1_0
        (Host.reduceAdd (Host.exp (subf y (rowmax10 y))) (constant S_ .f32 0x00000000#32) reducesTo_S50000x10_S50000_d1 h_S_))))

/-! ## The network -/

/-- The hidden features: the first layer and the rectifier. -/
def hidden (x : FA S50000x128 .f32) (adj : IA S2x1600000) (ew : FA S1600000 .f32) (W1 : FA S128x128 .f32) (b1 : FA S128 .f32) : FA S50000x128 .f32 :=
  relu128 (comb128 (agg128 (mm128 x W1) (src adj) (dst adj) (norm (src adj) (dst adj) ew)) (mm128 x W1)
    (dcol (dinv (dst adj) ew)) (brow128 b1))

/-- The network's result. -/
def out (x : FA S50000x128 .f32) (adj : IA S2x1600000) (ew : FA S1600000 .f32) (W1 : FA S128x128 .f32) (b1 : FA S128 .f32)
    (W2 : FA S128x10 .f32) (b2 : FA S10 .f32) : FA S50000x10 .f32 :=
  lsm10 (comb10 (agg10 (mm10 (hidden x adj ew W1 b1) W2) (src adj) (dst adj) (norm (src adj) (dst adj) ew))
    (mm10 (hidden x adj ew W1 b1) W2) (dcol (dinv (dst adj) ew)) (brow10 b2))

end Cert.ReferenceIdeal.Spec

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«109081_j23347442221163_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.Region0.lean ====
/-
  The first matrix product, block by block. The grid has ten points; point t loads rows 5000·t … 5000·t + 4999 of the
  node features and the whole 128 × 128 weight matrix, and stores their product (into a zero accumulator) as the same
  rows of the result. The ten blocks tile the result, so the whole array is the features times the weights.
-/
import proofs.«109081_j23347442221163_1_alg».proof.Proof.Gen.KernelIdeal.Frame
import proofs.«109081_j23347442221163_1_alg».proof.Proof.Spec
import Idealize.ShloMosaic.PureOps.Ideal
import Idealize.ShloMosaic.PureOps.Ideal.Laws
import Idealize.ShloMosaic.Lib.Pipeline.Value
import Idealize.ShloMosaic.Lib.ValueIdx
import proofs.«109081_j23347442221163_1_alg».proof.Proof.LibDense
import proofs.«109081_j23347442221163_1_alg».proof.Proof.LibRectify
import proofs.«109081_j23347442221163_1_alg».proof.Proof.LibRowReduce
import proofs.«109081_j23347442221163_1_alg».proof.Proof.LibKeepdims

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

-- the TensorCore's buffer contents when a region is entered, at the extended reals
variable (V : (c : Dev nD) → (b : Ref sig .tc) → Buf (Elt Ideal) ((c : Thread nD τ).loc b))

open Idealize.ShloMosaic.ValueIdx

/-- The zero offsets of a load or a store of a whole block. -/
theorem mm128_zeroOffsets : (![0, 0] : Fin 2 → Nat) = fun _ => 0 := funext fun a => by fin_cases a <;> rfl

/-- Entry (r, q) of the features times the weights: the sum over k of X (r, k) · W (k, q). -/
def rowsTimes128 (X : S50000x128.Idx → EReal) (W : S128x128.Idx → EReal) : S50000x128.Idx → EReal :=
  fun j => ∑ k : Fin 128, X (ix2 (j 0) k) * W (ix2 k (j 1))

/-- The reference's product is that function of its two operands. -/
theorem mm128_eq (X : FVec Ideal S50000x128 .f32) (W : FVec Ideal S128x128 .f32) :
    Cert.ReferenceIdeal.Spec.mm128 (F := Ideal) X W = rowsTimes128 X W := by
  funext j
  exact Cert.Lib.Dense.plain_dot_apply 50000 128 128 none _ X W j

/-- A block's product into the zero accumulator, at an entry of the block: the change of format of the rows is the
    identity at the extended reals, and the weights are cast to their own shape. -/
theorem mm128_block_apply (x0 : Vec Ideal S5000x128 .f32) (x1 : Vec Ideal S128x128 .bf16) (y : S5000x128.Idx) :
    k0_pay1 x0 x1 y = ∑ k : Fin 128, x0 (ix2 (y 0) k) * x1 (ix2 k (y 1)) := by
  have e := shapeCast_self x1 shapeCasts_S128x128_S128x128
  unfold k0_pay1
  show FloatOps.matmul (F := Ideal) (DotDims.plain 5000 128 128) none (φ₁ := .f32) (φ₂ := .bf16) x0 _
    (constant _ .f32 0x00000000#32) y = _
  rw [e]
  exact Cert.Lib.Dense.plain_matmul_apply 5000 128 128 none x0 x1 y

/-- An entry of a block's product only looks at one row of the block and one column of the weights: where those agree
    with row i 0 of the whole features and column i 1 of the whole weights, it is entry i of the whole product. -/
theorem mm128_block_entry (x0 : Vec Ideal S5000x128 .f32) (x1 : Vec Ideal S128x128 .bf16)
    (X : S50000x128.Idx → EReal) (W : S128x128.Idx → EReal) (y : S5000x128.Idx) (i : S50000x128.Idx)
    (hx : ∀ k : Fin 128, x0 (ix2 (y 0) k) = X (ix2 (i 0) k)) (hw : ∀ k : Fin 128, x1 (ix2 k (y 1)) = W (ix2 k (i 1))) :
    k0_pay1 x0 x1 y = rowsTimes128 X W i := by
  rw [mm128_block_apply]
  exact Finset.sum_congr rfl fun k _ => by rw [hx k, hw k]

/-- The index maps over the grid: point t's block of the features and its block of the result are block row t, and the
    weights' block is the whole matrix. -/
theorem mm128_blockRows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: entry y of the block is row 5000·t + y 0 of the features
    against column y 1 of the weights. -/
theorem mm128_flushed (c : Dev nD) (t : Fin cfg0.N) :
    (dat0 (F := Ideal) V c).flushed 2 t
      = ((cfg0.win 2).blk t).view.read (Elt Ideal) (rowsTimes128 (V c main_arg0) (V c main_v31)) := by
  show (cfg0.win 2).cut (grid0.coords t) ((dat0 V c).after 2 t) = _
  rw [after0_2]
  unfold out0_2
  rw [View.canon_unit_zero mm128_zeroOffsets]
  simp only [View.ld_unit_zero (S := S5000x128) mm128_zeroOffsets, View.ld_unit_zero (S := S128x128) mm128_zeroOffsets]
  obtain ⟨e00, e01, e10, e11, e20, e21⟩ := mm128_blockRows t
  funext y
  show k0_pay1 (iblk0 V c 0 t) (iblk0 V c 1 t) y
    = rowsTimes128 (V c main_arg0) (V c main_v31) (((cfg0.win 2).blk t).view.emb y)
  refine mm128_block_entry _ _ _ _ y _ (fun k => ?_) (fun k => ?_)
  · -- the block's row y 0 is the features' row 5000·t + y 0, all 128 columns
    show V c main_arg0 (((cfg0.win 0).blk t).view.emb (ix2 (y 0) k)) = V c main_arg0 _
    refine congrArg (V c main_arg0) (funext fun a => Fin.ext ?_)
    match a with
    | ⟨0, _⟩ =>
      show win0_0.index t (0 : Fin 2) * 5000 + 1 * (y 0).val = win0_2.index t (0 : Fin 2) * 5000 + 1 * (y 0).val
      omega
    | ⟨1, _⟩ =>
      show win0_0.index t (1 : Fin 2) * 128 + 1 * k.val = k.val
      omega
  · -- the weights' block is the whole matrix
    show V c main_v31 (((cfg0.win 1).blk t).view.emb (ix2 k (y 1))) = V c main_v31 _
    refine congrArg (V c main_v31) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (y 1).val = win0_2.index t (1 : Fin 2) * 128 + 1 * (y 1).val
      omega

/-- An index of the result is in point t's block iff each coordinate is in the block's range on its axis. -/
theorem mm128_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- The ten blocks tile the result: row r is in the block of point r / 5000, whatever the column. -/
theorem mm128_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21⟩ := mm128_blockRows ⟨(i 0).val / 5000, ht⟩
  refine ⟨⟨(i 0).val / 5000, ht⟩, flush0_2 _, ?_⟩
  rw [mm128_mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e21]
    omega

/-- The result array after the region is the features times the weights. -/
theorem final0 (c : Dev nD) :
    (dat0 (F := Ideal) V c).arrAt 2 cfg0.N
      = Cert.ReferenceIdeal.Spec.mm128 (F := Ideal) (V c main_arg0) (V c main_v31) := by
  rw [mm128_eq]
  exact (dat0 V c).arrAt_eq_of_cover 2 (rowsTimes128 (V c main_arg0) (V c main_v31))
    (fun t _ => mm128_flushed V c t) mm128_cover

end Cert.KernelIdeal.Val

end
-- ==== Proof.Region1.lean ====
/-
  The first layer's combine, block by block: at rows 5000·t … 5000·t + 4999 the result is
  max(agg + xw · d + b, 0), with d the column of dinv² (one entry per row) and b the bias row. The ten blocks tile the array.
-/
import proofs.«109081_j23347442221163_1_alg».proof.Proof.Gen.KernelIdeal.Frame
import proofs.«109081_j23347442221163_1_alg».proof.Proof.Spec
import Idealize.ShloMosaic.PureOps.Ideal
import Idealize.ShloMosaic.PureOps.Ideal.Laws
import Idealize.ShloMosaic.Lib.Pipeline.Value
import Idealize.ShloMosaic.Lib.ValueIdx
import proofs.«109081_j23347442221163_1_alg».proof.Proof.LibDense
import proofs.«109081_j23347442221163_1_alg».proof.Proof.LibRectify
import proofs.«109081_j23347442221163_1_alg».proof.Proof.LibRowReduce
import proofs.«109081_j23347442221163_1_alg».proof.Proof.LibKeepdims

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

open Idealize.ShloMosaic.ValueIdx
open Cert.Lib.Rectify

-- the TensorCore's buffer contents when a region is entered, at the extended reals
variable (V : (c : Dev nD) → (b : Ref sig .tc) → Buf (Elt Ideal) ((c : Thread nD τ).loc b))

/-- A row `[1, b]` repeated down an `[a, b]` block reads, at `(i, j)`, the row's entry of column `j`. -/
theorem comb128_rowSpread_apply {α : Type} {a b : ℕ} (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The layer's combine over whole arrays, entry by entry: at row `p`, column `q` it is
    `max(agg + xw · d_p + b_q, 0)`, `d` a column (one entry per row) and `b` a row (one entry per column). -/
def comb128_combine (agg xw : S50000x128.Idx → EReal) (d : S50000x1.Idx → EReal) (b : S1x128.Idx → EReal) : S50000x128.Idx → EReal :=
  fun i => relu1 (agg i + xw i * d (ix2 (i 0 : Fin 50000) (0 : Fin 1)) + b (ix2 (0 : Fin 1) (i 1 : Fin 128)))

/-- A block's store starts at row 0, column 0: the offset vector `(0, 0)` is the constant zero. -/
theorem comb128_zeroOffsets : (![0, 0] : Fin 2 → Nat) = fun _ => 0 := funext fun a => by fin_cases a <;> rfl

/-- The body's arithmetic on its four loaded blocks, as one tree of vector operations. -/
theorem comb128_bodyTree (x0 x1 : Vec Ideal S5000x128 .f32) (x2 : Vec Ideal S5000x1 .f32) (x3 : Vec Ideal S1x128 .f32) :
    k1_pay1 x0 x1 x2 x3
      = maximumf (addf (addf x0 (mulf x1 (broadcastTo S5000x128 x2 broadcasts_S5000x1_S5000x128)))
          (broadcastTo S5000x128 x3 broadcasts_S1x128_S5000x128)) (broadcast S5000x128 (Scalar.ofBits .f32 0x00000000#32)) := by
  unfold k1_pay1
  simp only [shapeCast_self]

/-- The body's result at row `p`, column `q` of the block. -/
theorem comb128_bodyAt (x0 x1 : Vec Ideal S5000x128 .f32) (x2 : Vec Ideal S5000x1 .f32) (x3 : Vec Ideal S1x128 .f32) (p : Fin 5000) (q : Fin 128) :
    k1_pay1 x0 x1 x2 x3 (ix2 p q) = relu1 (x0 (ix2 p q) + x1 (ix2 p q) * x2 (ix2 p (0 : Fin 1)) + x3 (ix2 (0 : Fin 1) q)) := by
  rw [comb128_bodyTree, relu_vec]
  show relu1 (x0 (ix2 p q) + x1 (ix2 p q) * broadcastTo S5000x128 x2 broadcasts_S5000x1_S5000x128 (ix2 p q)
      + broadcastTo S5000x128 x3 broadcasts_S1x128_S5000x128 (ix2 p q)) = _
  rw [Cert.LibKeepdims.broadcastTo_a1_ab_apply, comb128_rowSpread_apply]

/-- The reference's term is the same function of the whole arrays. -/
theorem comb128_reference_eq (agg xw : FVec Ideal S50000x128 .f32) (d : FVec Ideal S50000x1 .f32) (b : FVec Ideal S1x128 .f32) :
    Cert.ReferenceIdeal.Spec.relu128 (F := Ideal) (Cert.ReferenceIdeal.Spec.comb128 (F := Ideal) agg xw d b) = comb128_combine agg xw d b := by
  unfold Cert.ReferenceIdeal.Spec.relu128
  rw [relu_host]
  funext j
  obtain ⟨p, q, rfl⟩ : ∃ (p : Fin 50000) (q : Fin 128), j = ix2 p q := ⟨j 0, j 1, eq_ix2 j⟩
  unfold Cert.ReferenceIdeal.Spec.comb128
  show relu1 (agg (ix2 p q) + xw (ix2 p q) * broadcastInDim Cert.ReferenceIdeal.S50000x128 ![0, 1] Cert.ReferenceIdeal.Gen.bcast_S50000x1_S50000x128_0_1 d (ix2 p q)
      + broadcastInDim Cert.ReferenceIdeal.S50000x128 ![0, 1] Cert.ReferenceIdeal.Gen.bcast_S1x128_S50000x128_0_1 b (ix2 p q)) = _
  rw [broadcastInDim_apply _ _ d (ix2 p q) (ix2 p (0 : Fin 1)) (fun a => by
        match a with
        | ⟨0, _⟩ => show p.val = if (50000 : ℕ) = 1 then 0 else p.val; rw [if_neg (by decide)]
        | ⟨1, _⟩ => rfl),
      broadcastInDim_apply _ _ b (ix2 p q) (ix2 (0 : Fin 1) q) (fun a => by
        match a with
        | ⟨0, _⟩ => rfl
        | ⟨1, _⟩ => show q.val = if (128 : ℕ) = 1 then 0 else q.val; rw [if_neg (by decide)])]
  rfl

/-- The printed index maps over the grid: at point `t` the three row-blocked inputs and the output sit at block row `t`,
    block column 0; the bias row is the whole of its array. -/
theorem comb128_blocksAt : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the combine of the four arrays as the region finds them: row `p` of
    the point's blocks is row `5000·t + p` of the row-blocked arrays, and the bias row is read whole. -/
theorem comb128_writtenBack (c : Dev nD) (t : Fin cfg1.N) :
    (dat1 (F := Ideal) V c).flushed 4 t
      = ((cfg1.win 4).blk t).view.read (Elt Ideal) (comb128_combine (V c main_v46) (V c main_v33) (V c main_v14) (V c main_v47)) := by
  show (cfg1.win 4).cut (grid1.coords t) ((dat1 V c).after 4 t) = _
  rw [after1_4]
  unfold out1_4
  rw [View.canon_unit_zero comb128_zeroOffsets]
  simp only [View.ld_unit_zero (S := S5000x128) comb128_zeroOffsets, View.ld_unit_zero (S := S5000x1) comb128_zeroOffsets, View.ld_unit_zero (S := S1x128) comb128_zeroOffsets]
  obtain ⟨a0, a1, b0, b1, d0, d1, r0, r1, o0, o1⟩ := comb128_blocksAt t
  have ht : t.val < 10 := lt_of_lt_of_eq t.isLt N_1
  funext y
  obtain ⟨p, q, rfl⟩ : ∃ (p : Fin 5000) (q : Fin 128), y = ix2 p q := ⟨y 0, y 1, eq_ix2 y⟩
  have hp : p.val < 5000 := p.isLt
  -- where each block's entries sit in its array
  have e0 : ((cfg1.win 0).blk t).view.emb (ix2 p q) = (ix2 (⟨5000 * t.val + p.val, by omega⟩ : Fin 50000) q : S50000x128.Idx) := by
    funext a; apply Fin.ext
    match a with
    | ⟨0, _⟩ => show win1_0.index t (0 : Fin 2) * 5000 + 1 * p.val = 5000 * t.val + p.val; omega
    | ⟨1, _⟩ => show win1_0.index t (1 : Fin 2) * 128 + 1 * q.val = q.val; omega
  have e1 : ((cfg1.win 1).blk t).view.emb (ix2 p q) = (ix2 (⟨5000 * t.val + p.val, by omega⟩ : Fin 50000) q : S50000x128.Idx) := by
    funext a; apply Fin.ext
    match a with
    | ⟨0, _⟩ => show win1_1.index t (0 : Fin 2) * 5000 + 1 * p.val = 5000 * t.val + p.val; omega
    | ⟨1, _⟩ => show win1_1.index t (1 : Fin 2) * 128 + 1 * q.val = q.val; omega
  have e2 : ((cfg1.win 2).blk t).view.emb (ix2 p (0 : Fin 1)) = (ix2 (⟨5000 * t.val + p.val, by omega⟩ : Fin 50000) (0 : Fin 1) : S50000x1.Idx) := by
    funext a; apply Fin.ext
    match a with
    | ⟨0, _⟩ => show win1_2.index t (0 : Fin 2) * 5000 + 1 * p.val = 5000 * t.val + p.val; omega
    | ⟨1, _⟩ => show win1_2.index t (1 : Fin 2) * 1 + 1 * 0 = 0; omega
  have e3 : ((cfg1.win 3).blk t).view.emb (ix2 (0 : Fin 1) q) = (ix2 (0 : Fin 1) q : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have e4 : ((cfg1.win 4).blk t).view.emb (ix2 p q) = (ix2 (⟨5000 * t.val + p.val, by omega⟩ : Fin 50000) q : S50000x128.Idx) := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  show k1_pay1 (iblk1 V c 0 t) (iblk1 V c 1 t) (iblk1 V c 2 t) (iblk1 V c 3 t) (ix2 p q)
      = comb128_combine (V c main_v46) (V c main_v33) (V c main_v14) (V c main_v47) (((cfg1.win 4).blk t).view.emb (ix2 p q))
  rw [comb128_bodyAt (iblk1 V c 0 t) (iblk1 V c 1 t) (iblk1 V c 2 t) (iblk1 V c 3 t) p q, e4]
  -- each block entry the body reads is an entry of the block's array
  have h0 : iblk1 V c 0 t (ix2 p q) = V c main_v46 (ix2 (⟨5000 * t.val + p.val, by omega⟩ : Fin 50000) q) := by
    show V c main_v46 (((cfg1.win 0).blk t).view.emb (ix2 p q)) = _
    rw [e0]
  have h1 : iblk1 V c 1 t (ix2 p q) = V c main_v33 (ix2 (⟨5000 * t.val + p.val, by omega⟩ : Fin 50000) q) := by
    show V c main_v33 (((cfg1.win 1).blk t).view.emb (ix2 p q)) = _
    rw [e1]
  have h2 : iblk1 V c 2 t (ix2 p (0 : Fin 1)) = V c main_v14 (ix2 (⟨5000 * t.val + p.val, by omega⟩ : Fin 50000) (0 : Fin 1)) := by
    show V c main_v14 (((cfg1.win 2).blk t).view.emb (ix2 p (0 : Fin 1))) = _
    rw [e2]
  have h3 : iblk1 V c 3 t (ix2 (0 : Fin 1) q) = V c main_v47 (ix2 (0 : Fin 1) q) := by
    show V c main_v47 (((cfg1.win 3).blk t).view.emb (ix2 (0 : Fin 1) q)) = _
    rw [e3]
  rw [h0, h1, h2, h3]
  rfl

/-- An index of the array is in point `t`'s block iff each coordinate is in the block's range on its axis. -/
theorem comb128_mem_block_iff (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- The ten blocks tile the array: row `r` is in the block of point `r / 5000`, which writes back. -/
theorem comb128_blocksTile (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hq : (i 0).val / 5000 < 10 := by omega
  obtain ⟨t, ht⟩ : ∃ t : Fin cfg1.N, t.val = (i 0).val / 5000 := ⟨⟨(i 0).val / 5000, lt_of_lt_of_eq hq N_1.symm⟩, rfl⟩
  obtain ⟨-, -, -, -, -, -, -, -, o0, o1⟩ := comb128_blocksAt t
  refine ⟨t, flush1_4 t, ?_⟩
  rw [comb128_mem_block_iff]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY after the region: the reference's own term of the four arrays the region finds. -/
theorem final1 (c : Dev nD) :
    (dat1 (F := Ideal) V c).arrAt 4 cfg1.N
      = Cert.ReferenceIdeal.Spec.relu128 (F := Ideal)
          (Cert.ReferenceIdeal.Spec.comb128 (F := Ideal) (V c main_v46) (V c main_v33) (V c main_v14) (V c main_v47)) := by
  rw [comb128_reference_eq]
  exact (dat1 (F := Ideal) V c).arrAt_eq_of_cover 4 (comb128_combine (V c main_v46) (V c main_v33) (V c main_v14) (V c main_v47))
    (fun t _ => comb128_writtenBack V c t) comb128_blocksTile

end Cert.KernelIdeal.Val

end
-- ==== Proof.Region2.lean ====
/-
  The second matrix product, block by block: rows 5000·t … 5000·t + 4999 of the hidden features times the whole
  128 × 10 weight matrix. The ten blocks tile the result.
-/
import proofs.«109081_j23347442221163_1_alg».proof.Proof.Gen.KernelIdeal.Frame
import proofs.«109081_j23347442221163_1_alg».proof.Proof.Spec
import Idealize.ShloMosaic.PureOps.Ideal
import Idealize.ShloMosaic.PureOps.Ideal.Laws
import Idealize.ShloMosaic.Lib.Pipeline.Value
import Idealize.ShloMosaic.Lib.ValueIdx
import proofs.«109081_j23347442221163_1_alg».proof.Proof.LibDense
import proofs.«109081_j23347442221163_1_alg».proof.Proof.LibRectify
import proofs.«109081_j23347442221163_1_alg».proof.Proof.LibRowReduce
import proofs.«109081_j23347442221163_1_alg».proof.Proof.LibKeepdims

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

-- the TensorCore's buffer contents when a region is entered, at the extended reals
variable (V : (c : Dev nD) → (b : Ref sig .tc) → Buf (Elt Ideal) ((c : Thread nD τ).loc b))

open Idealize.ShloMosaic.ValueIdx

/-- The zero offsets of a load or a store of a whole block. -/
theorem mm10_zeroOffsets : (![0, 0] : Fin 2 → Nat) = fun _ => 0 := funext fun a => by fin_cases a <;> rfl

/-- Entry (r, q) of the hidden features times the second weights: the sum over k of H (r, k) · W (k, q). -/
def rowsTimes10 (H : S50000x128.Idx → EReal) (W : S128x10.Idx → EReal) : S50000x10.Idx → EReal :=
  fun j => ∑ k : Fin 128, H (ix2 (j 0) k) * W (ix2 k (j 1))

/-- The reference's product is that function of its two operands. -/
theorem mm10_eq (H : FVec Ideal S50000x128 .f32) (W : FVec Ideal S128x10 .f32) :
    Cert.ReferenceIdeal.Spec.mm10 (F := Ideal) H W = rowsTimes10 H W := by
  funext j
  exact Cert.Lib.Dense.plain_dot_apply 50000 128 10 none _ H W j

/-- A block's product into the zero accumulator, at an entry of the block: the rows and the weights are each cast to
    their own shape, and the change of format of the rows is the identity at the extended reals. -/
theorem mm10_block_apply (x0 : Vec Ideal S5000x128 .f32) (x1 : Vec Ideal S128x10 .bf16) (y : S5000x10.Idx) :
    k2_pay1 x0 x1 y = ∑ k : Fin 128, x0 (ix2 (y 0) k) * x1 (ix2 k (y 1)) := by
  have e0 := shapeCast_self x0 shapeCasts_S5000x128_S5000x128
  have e1 := shapeCast_self x1 shapeCasts_S128x10_S128x10
  unfold k2_pay1
  show FloatOps.matmul (F := Ideal) (DotDims.plain 5000 128 10) none (φ₁ := .bf16) (φ₂ := .bf16) _ _
    (constant _ .f32 0x00000000#32) y = _
  rw [e0, e1]
  exact Cert.Lib.Dense.plain_matmul_apply 5000 128 10 none x0 x1 y

/-- An entry of a block's product only looks at one row of the block and one column of the weights: where those agree
    with row i 0 of the whole hidden features and column i 1 of the whole weights, it is entry i of the whole product. -/
theorem mm10_block_entry (x0 : Vec Ideal S5000x128 .f32) (x1 : Vec Ideal S128x10 .bf16)
    (H : S50000x128.Idx → EReal) (W : S128x10.Idx → EReal) (y : S5000x10.Idx) (i : S50000x10.Idx)
    (hx : ∀ k : Fin 128, x0 (ix2 (y 0) k) = H (ix2 (i 0) k)) (hw : ∀ k : Fin 128, x1 (ix2 k (y 1)) = W (ix2 k (i 1))) :
    k2_pay1 x0 x1 y = rowsTimes10 H W i := by
  rw [mm10_block_apply]
  exact Finset.sum_congr rfl fun k _ => by rw [hx k, hw k]

/-- The index maps over the grid: point t's block of the hidden features and its block of the result are block row t,
    and the weights' block is the whole matrix. -/
theorem mm10_blockRows : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: entry y of the block is row 5000·t + y 0 of the hidden
    features against column y 1 of the weights. -/
theorem mm10_flushed (c : Dev nD) (t : Fin cfg2.N) :
    (dat2 (F := Ideal) V c).flushed 2 t
      = ((cfg2.win 2).blk t).view.read (Elt Ideal) (rowsTimes10 (V c main_v48) (V c main_v32)) := by
  show (cfg2.win 2).cut (grid2.coords t) ((dat2 V c).after 2 t) = _
  rw [after2_2]
  unfold out2_2
  rw [View.canon_unit_zero mm10_zeroOffsets]
  simp only [View.ld_unit_zero (S := S5000x128) mm10_zeroOffsets, View.ld_unit_zero (S := S128x10) mm10_zeroOffsets]
  obtain ⟨e00, e01, e10, e11, e20, e21⟩ := mm10_blockRows t
  funext y
  show k2_pay1 (iblk2 V c 0 t) (iblk2 V c 1 t) y
    = rowsTimes10 (V c main_v48) (V c main_v32) (((cfg2.win 2).blk t).view.emb y)
  refine mm10_block_entry _ _ _ _ y _ (fun k => ?_) (fun k => ?_)
  · -- the block's row y 0 is the hidden features' row 5000·t + y 0, all 128 columns
    show V c main_v48 (((cfg2.win 0).blk t).view.emb (ix2 (y 0) k)) = V c main_v48 _
    refine congrArg (V c main_v48) (funext fun a => Fin.ext ?_)
    match a with
    | ⟨0, _⟩ =>
      show win2_0.index t (0 : Fin 2) * 5000 + 1 * (y 0).val = win2_2.index t (0 : Fin 2) * 5000 + 1 * (y 0).val
      omega
    | ⟨1, _⟩ =>
      show win2_0.index t (1 : Fin 2) * 128 + 1 * k.val = k.val
      omega
  · -- the weights' block is the whole matrix
    show V c main_v32 (((cfg2.win 1).blk t).view.emb (ix2 k (y 1))) = V c main_v32 _
    refine congrArg (V c main_v32) (funext fun a => Fin.ext ?_)
    match a with
    | ⟨0, _⟩ =>
      show win2_1.index t (0 : Fin 2) * 128 + 1 * k.val = k.val
      omega
    | ⟨1, _⟩ =>
      show win2_1.index t (1 : Fin 2) * 10 + 1 * (y 1).val = win2_2.index t (1 : Fin 2) * 10 + 1 * (y 1).val
      omega

/-- An index of the result is in point t's block iff each coordinate is in the block's range on its axis. -/
theorem mm10_mem_blk (t : Fin cfg2.N) (i : S50000x10.Idx) :
    i ∈ ((cfg2.win 2).blk t).view.set ↔ ∀ a : Fin 2, win2_2.index t a * S5000x10.size a ≤ (i a).val
      ∧ (i a).val < win2_2.index t a * S5000x10.size a + S5000x10.size a := by
  show i ∈ ((View.whole main_v49).slice (win2_2.rect t)).set ↔ _
  rw [View.set_slice_whole, Rect.mem_set_unit]
  exact Iff.rfl

/-- The ten blocks tile the result: row r is in the block of point r / 5000, whatever the column. -/
theorem mm10_cover (i : S50000x10.Idx) :
    ∃ t : Fin cfg2.N, (cfg2.win 2).flush t = true ∧ i ∈ ((cfg2.win 2).blk t).view.set := by
  have hi0 : (i 0).val < 50000 := (i 0).isLt
  have hi1 : (i 1).val < 10 := (i 1).isLt
  have hN : cfg2.N = 10 := N_2
  have ht : (i 0).val / 5000 < cfg2.N := by rw [hN]; omega
  obtain ⟨e00, e01, e10, e11, e20, e21⟩ := mm10_blockRows ⟨(i 0).val / 5000, ht⟩
  refine ⟨⟨(i 0).val / 5000, ht⟩, flush2_2 _, ?_⟩
  rw [mm10_mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, ht⟩ (1 : Fin 2) * 10 ≤ (i 1).val
      ∧ (i 1).val < win2_2.index ⟨(i 0).val / 5000, ht⟩ (1 : Fin 2) * 10 + 10
    rw [e21]
    omega

/-- The result array after the region is the hidden features times the second weights. -/
theorem final2 (c : Dev nD) :
    (dat2 (F := Ideal) V c).arrAt 2 cfg2.N
      = Cert.ReferenceIdeal.Spec.mm10 (F := Ideal) (V c main_v48) (V c main_v32) := by
  rw [mm10_eq]
  exact (dat2 V c).arrAt_eq_of_cover 2 (rowsTimes10 (V c main_v48) (V c main_v32))
    (fun t _ => mm10_flushed V c t) mm10_cover

end Cert.KernelIdeal.Val

end
-- ==== Proof.Region3.lean ====
/-
  The second layer's combine and the logarithm of the softmax, block by block: with y = agg + xw · d + b at a row,
  the result is (y − max y) − log Σ exp (y − max y) along that row; a row lies in one block, so the ten blocks give the
  whole array's rows.
-/
import proofs.«109081_j23347442221163_1_alg».proof.Proof.Gen.KernelIdeal.Frame
import proofs.«109081_j23347442221163_1_alg».proof.Proof.Spec
import Idealize.ShloMosaic.PureOps.Ideal
import Idealize.ShloMosaic.PureOps.Ideal.Laws
import Idealize.ShloMosaic.Lib.Pipeline.Value
import Idealize.ShloMosaic.Lib.ValueIdx
import proofs.«109081_j23347442221163_1_alg».proof.Proof.LibDense
import proofs.«109081_j23347442221163_1_alg».proof.Proof.LibRectify
import proofs.«109081_j23347442221163_1_alg».proof.Proof.LibRowReduce
import proofs.«109081_j23347442221163_1_alg».proof.Proof.LibKeepdims

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

open scoped BigOperators
open Idealize.ShloMosaic.ValueIdx

/-! ## A row's logarithm of the softmax -/

/-- The maximum of a row of ten entries, taken from minus infinity. -/
def lsm10_rowMax (y : Fin 10 → EReal) : EReal := (Finset.univ : Finset (Fin 10)).fold max ⊥ y

/-- The logarithm of the softmax of a row, at column `q`: with `z = y − max y`, it is `z q − log Σ exp z`. -/
def lsm10_row (y : Fin 10 → EReal) (q : Fin 10) : EReal :=
  (y q - lsm10_rowMax y) - Ideal.log (∑ k : Fin 10, Ideal.exp (y k - lsm10_rowMax y))

/-- The word of minus infinity denotes the bottom of the extended reals. -/
theorem lsm10_ofBits_neg_inf : Ideal.ofBits .f32 0xFF800000#32 = ⊥ := by simp [Ideal.ofBits, Ideal.ieee]

/-- A row `[1, b]` spread over an `[a, b]` block reads, at `(i, j)`, the row's entry of column `j`. -/
theorem lsm10_broadcastTo_1b_ab_apply {α : Type} {a b : ℕ} (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-! ## The body's arithmetic on a block -/

/-- The combine of a block: `agg + xw · d + b`, the column and the row each spread over the block. -/
def lsm10_combBlk (x0 x1 : Vec Ideal S5000x10 .f32) (x2 : Vec Ideal S5000x1 .f32) (x3 : Vec Ideal S1x10 .f32) : FVec Ideal S5000x10 .f32 :=
  addf (addf (shapeCast S5000x10 x0 shapeCasts_S5000x10_S5000x10)
      (mulf (shapeCast S5000x10 x1 shapeCasts_S5000x10_S5000x10)
        (broadcastTo S5000x10 (shapeCast S5000x1 x2 shapeCasts_S5000x1_S5000x1) broadcasts_S5000x1_S5000x10)))
    (broadcastTo S5000x10 (shapeCast S1x10 x3 shapeCasts_S1x10_S1x10) broadcasts_S1x10_S5000x10)

/-- The block's row maxima, kept as a column and spread back over the block. -/
def lsm10_maxBlk (y : FVec Ideal S5000x10 .f32) : FVec Ideal S5000x10 .f32 :=
  broadcastTo S5000x10 (shapeCast S5000x1
    (multiReduction .maximumf [1] S5000 y 0xFF800000#32 reduces_S5000x10_S5000 (.inl rfl) rfl) shapeCasts_S5000_S5000x1)
    broadcasts_S5000x1_S5000x10

/-- The logarithm of the softmax along each row of a block, as the body computes it. -/
def lsm10_blk (y : FVec Ideal S5000x10 .f32) : FVec Ideal S5000x10 .f32 :=
  subf (subf y (lsm10_maxBlk y))
    (broadcastTo S5000x10 (log (shapeCast S5000x1
      (multiReduction .add [1] S5000 (exp (subf y (lsm10_maxBlk y))) 0x00000000#32 reduces_S5000x10_S5000 (.inl rfl) rfl)
      shapeCasts_S5000_S5000x1)) broadcasts_S5000x1_S5000x10)

/-- The body's payload is the logarithm of the softmax of the combine of its four blocks. -/
theorem lsm10_pay_eq (x0 x1 : Vec Ideal S5000x10 .f32) (x2 : Vec Ideal S5000x1 .f32) (x3 : Vec Ideal S1x10 .f32) :
    k3_pay1 (F := Ideal) x0 x1 x2 x3 = lsm10_blk (lsm10_combBlk x0 x1 x2 x3) := rfl

/-- The combine of a block at `(p, k)`: the two blocks' entries there, the column's entry of row `p`, the row's of column `k`. -/
theorem lsm10_combBlk_apply (x0 x1 : Vec Ideal S5000x10 .f32) (x2 : Vec Ideal S5000x1 .f32) (x3 : Vec Ideal S1x10 .f32)
    (p : Fin 5000) (k : Fin 10) :
    lsm10_combBlk x0 x1 x2 x3 (ix2 p k) = x0 (ix2 p k) + x1 (ix2 p k) * x2 (ix2 p (0 : Fin 1)) + x3 (ix2 (0 : Fin 1) k) := by
  unfold lsm10_combBlk
  rw [shapeCast_self, shapeCast_self, shapeCast_self, shapeCast_self]
  show x0 (ix2 p k) + x1 (ix2 p k) * broadcastTo S5000x10 x2 broadcasts_S5000x1_S5000x10 (ix2 p k)
      + broadcastTo S5000x10 x3 broadcasts_S1x10_S5000x10 (ix2 p k) = _
  rw [Cert.LibKeepdims.broadcastTo_a1_ab_apply x2 broadcasts_S5000x1_S5000x10 p k,
    lsm10_broadcastTo_1b_ab_apply x3 broadcasts_S1x10_S5000x10 p k]

/-- The spread row maxima at `(p, k)`: the maximum of row `p`. -/
theorem lsm10_maxBlk_apply (y : FVec Ideal S5000x10 .f32) (p : Fin 5000) (k : Fin 10) :
    lsm10_maxBlk y (ix2 p k) = lsm10_rowMax (fun k' => y (ix2 p k')) := by
  unfold lsm10_maxBlk
  rw [Cert.LibKeepdims.broadcastTo_a1_ab_apply _ broadcasts_S5000x1_S5000x10 p k,
    Cert.LibKeepdims.shapeCast_a_a1_apply _ shapeCasts_S5000_S5000x1 p (0 : Fin 1)]
  refine (Cert.LibRowReduce.multiReduction_maximumf_row y 0xFF800000#32 reduces_S5000x10_S5000 (.inl rfl) rfl p).trans ?_
  rw [lsm10_ofBits_neg_inf]
  rfl

/-- The body's logarithm of the softmax at `(p, q)` is the row function of row `p`. -/
theorem lsm10_blk_apply (y : FVec Ideal S5000x10 .f32) (p : Fin 5000) (q : Fin 10) :
    lsm10_blk y (ix2 p q) = lsm10_row (fun k => y (ix2 p k)) q := by
  unfold lsm10_blk lsm10_row
  show (y (ix2 p q) - lsm10_maxBlk y (ix2 p q)) - broadcastTo S5000x10 _ broadcasts_S5000x1_S5000x10 (ix2 p q) = _
  rw [Cert.LibKeepdims.broadcastTo_a1_ab_apply _ broadcasts_S5000x1_S5000x10 p q]
  show (y (ix2 p q) - lsm10_maxBlk y (ix2 p q)) - Ideal.log (shapeCast S5000x1 _ shapeCasts_S5000_S5000x1 (ix2 p (0 : Fin 1))) = _
  rw [Cert.LibKeepdims.shapeCast_a_a1_apply _ shapeCasts_S5000_S5000x1 p (0 : Fin 1), lsm10_maxBlk_apply]
  refine congrArg (fun s => (y (ix2 p q) - lsm10_rowMax (fun k' => y (ix2 p k'))) - Ideal.log s) ?_
  refine (Cert.LibRowReduce.multiReduction_add_row (exp (subf y (lsm10_maxBlk y))) 0x00000000#32 reduces_S5000x10_S5000 (.inl rfl) rfl p).trans ?_
  refine Finset.sum_congr rfl fun k _ => ?_
  show Ideal.exp (y (ix2 p k) - lsm10_maxBlk y (ix2 p k)) = _
  rw [lsm10_maxBlk_apply]

/-- The body's payload at `(p, q)`: the row function of the combine's row `p`. -/
theorem lsm10_pay_apply (x0 x1 : Vec Ideal S5000x10 .f32) (x2 : Vec Ideal S5000x1 .f32) (x3 : Vec Ideal S1x10 .f32)
    (p : Fin 5000) (q : Fin 10) :
    k3_pay1 (F := Ideal) x0 x1 x2 x3 (ix2 p q)
      = lsm10_row (fun k => x0 (ix2 p k) + x1 (ix2 p k) * x2 (ix2 p (0 : Fin 1)) + x3 (ix2 (0 : Fin 1) k)) q := by
  rw [lsm10_pay_eq, lsm10_blk_apply]
  exact congrArg (fun f => lsm10_row f q) (funext fun k => lsm10_combBlk_apply x0 x1 x2 x3 p k)

/-! ## The reference's whole-array operations, read at an index -/

/-- A column `[a, 1]` repeated along the rows of an `[a, b]` array reads, at `(i, j)`, the column's entry of row `i`. -/
theorem lsm10_bcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- A row `[1, b]` repeated down an `[a, b]` array reads, at `(i, j)`, the row's entry of column `j`. -/
theorem lsm10_bcastInDim_1b_ab_apply {α : Type} {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

/-- A vector `[a]` made the column `[a, 1]` reads, at `(i, u)`, the vector at `i`. -/
theorem lsm10_bcastInDim_a_a1_apply {α : Type} {a : ℕ} (v : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- The host's sum over the second axis, at row `i`: the initial value plus the sum over the columns of that row. -/
theorem lsm10_hostReduceAdd_row {a b : ℕ} (x : (⟨2, ![a, b]⟩ : Shape).Idx → EReal) (init : EReal)
    (h' : (⟨2, ![a, b]⟩ : Shape).ReducesTo [1] (⟨1, ![a]⟩ : Shape)) (h : (⟨2, ![a, b]⟩ : Shape).Reduces [1] (⟨1, ![a]⟩ : Shape))
    (i : Fin a) : Ideal.hostReduceAdd h' x init (ix1 i) = init + ∑ k : Fin b, x (ix2 i k) := by
  rw [Ideal.hostReduceAdd_single h' h]
  exact congrArg (init + ·) (Finset.sum_congr rfl fun k _ => congrArg x (Cert.LibRowReduce.lift_row h i k))

/-- The host's exponential, logarithm and sum are the exact ones, entry by entry. -/
theorem lsm10_hostExp_apply {s : Shape} (x : FVec Ideal s .f32) (i : s.Idx) : Host.exp x i = Ideal.exp (x i) := rfl
theorem lsm10_hostLog_apply {s : Shape} (x : FVec Ideal s .f32) (i : s.Idx) : Host.log x i = Ideal.log (x i) := rfl
theorem lsm10_hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- The reference's combine at `(p, k)`: the two arrays' entries there, the column's entry of row `p`, the row's of column `k`. -/
theorem lsm10_comb10_apply (agg xw : FVec Ideal S50000x10 .f32) (dc : FVec Ideal S50000x1 .f32) (br : FVec Ideal S1x10 .f32)
    (p : Fin 50000) (k : Fin 10) :
    Cert.ReferenceIdeal.Spec.comb10 (F := Ideal) agg xw dc br (ix2 p k)
      = agg (ix2 p k) + xw (ix2 p k) * dc (ix2 p (0 : Fin 1)) + br (ix2 (0 : Fin 1) k) := by
  unfold Cert.ReferenceIdeal.Spec.comb10
  rw [addf_apply, addf_apply, mulf_apply, lsm10_bcastInDim_a1_ab_apply dc _ p k, lsm10_bcastInDim_1b_ab_apply br _ p k]

/-- The reference's repeated row maxima at `(p, k)`: the maximum of row `p`; the second maximum, against minus
    infinity, changes nothing. -/
theorem lsm10_rowmax10_apply (y : FVec Ideal S50000x10 .f32) (p : Fin 50000) (k : Fin 10) :
    Cert.ReferenceIdeal.Spec.rowmax10 (F := Ideal) y (ix2 p k) = lsm10_rowMax (fun k' => y (ix2 p k')) := by
  unfold Cert.ReferenceIdeal.Spec.rowmax10
  rw [lsm10_bcastInDim_a1_ab_apply _ _ p k, lsm10_bcastInDim_a_a1_apply _ _ p (0 : Fin 1), maximumf_apply, Cert.Lib.Dense.splat0_apply,
    Cert.LibRowReduce.hostReduce_maximumf_row y _ Cert.ReferenceIdeal.Gen.reducesTo_S50000x10_S50000_d1 (by decide) _ p]
  show max (Ideal.ofBits .f32 0xFF800000#32)
      ((Finset.univ : Finset (Fin 10)).fold max (Ideal.ofBits .f32 0xFF800000#32) (fun k' => y (ix2 p k'))) = _
  rw [lsm10_ofBits_neg_inf, max_bot_left]
  rfl

/-- The reference's logarithm of the softmax at `(p, q)` is the row function of row `p`. -/
theorem lsm10_apply (y : FVec Ideal S50000x10 .f32) (p : Fin 50000) (q : Fin 10) :
    Cert.ReferenceIdeal.Spec.lsm10 (F := Ideal) y (ix2 p q) = lsm10_row (fun k => y (ix2 p k)) q := by
  unfold Cert.ReferenceIdeal.Spec.lsm10 lsm10_row
  rw [subf_apply, subf_apply, lsm10_bcastInDim_a1_ab_apply _ _ p q, lsm10_hostLog_apply, lsm10_bcastInDim_a_a1_apply _ _ p (0 : Fin 1),
    lsm10_hostReduceAdd_apply, lsm10_hostReduceAdd_row _ _ _ (by decide) p, lsm10_rowmax10_apply]
  refine congrArg (fun s => (y (ix2 p q) - lsm10_rowMax (fun k' => y (ix2 p k'))) - Ideal.log s) ?_
  refine (congrArg (· + _) Ideal.ofBits_zero_f32).trans ((zero_add _).trans ?_)
  refine Finset.sum_congr rfl fun k _ => ?_
  rw [lsm10_hostExp_apply, subf_apply, lsm10_rowmax10_apply]

/-! ## The whole array's function -/

/-- The region's result as one function of its input arrays: at `(p, q)`, the row function of row `p` of
    `agg + xw · d + b`. A row of the result depends only on the same row of the inputs. -/
def lsm10_G (agg xw : S50000x10.Idx → EReal) (dc : S50000x1.Idx → EReal) (br : S1x10.Idx → EReal) : S50000x10.Idx → EReal :=
  fun j => lsm10_row (fun k => agg (ix2 (j 0 : Fin 50000) k) + xw (ix2 (j 0 : Fin 50000) k) * dc (ix2 (j 0 : Fin 50000) (0 : Fin 1))
    + br (ix2 (0 : Fin 1) k)) (j 1 : Fin 10)

theorem lsm10_G_apply (agg xw : S50000x10.Idx → EReal) (dc : S50000x1.Idx → EReal) (br : S1x10.Idx → EReal)
    (p : Fin 50000) (q : Fin 10) :
    lsm10_G agg xw dc br (ix2 p q)
      = lsm10_row (fun k => agg (ix2 p k) + xw (ix2 p k) * dc (ix2 p (0 : Fin 1)) + br (ix2 (0 : Fin 1) k)) q := rfl

/-- The reference's term is that function. -/
theorem lsm10_spec_eq (agg xw : FVec Ideal S50000x10 .f32) (dc : FVec Ideal S50000x1 .f32) (br : FVec Ideal S1x10 .f32) :
    Cert.ReferenceIdeal.Spec.lsm10 (F := Ideal) (Cert.ReferenceIdeal.Spec.comb10 (F := Ideal) agg xw dc br)
      = lsm10_G agg xw dc br := by
  funext j
  obtain ⟨p, q, rfl⟩ : ∃ (p : Fin 50000) (q : Fin 10), j = ix2 p q := ⟨j 0, j 1, eq_ix2 j⟩
  rw [lsm10_apply, lsm10_G_apply]
  exact congrArg (fun f => lsm10_row f q) (funext fun k => lsm10_comb10_apply agg xw dc br p k)

/-! ## From the blocks to the array -/

theorem lsm10_zeroOffsets : (![0, 0] : Fin 2 → Nat) = fun _ => 0 := funext fun a => by fin_cases a <;> rfl

/-- The index maps at each of the ten grid points: the row-blocked windows sit at block `(t, 0)`, the bias row at
    block `(0, 0)`. -/
theorem lsm10_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One grid point: if the four blocks are rows `5000 r + ·` of the arrays (the bias row whole), the body's payload at
    an entry of the block is the whole array's function at the entry `5000 r` rows further down. -/
theorem lsm10_point (agg xw : S50000x10.Idx → EReal) (dc : S50000x1.Idx → EReal) (br : S1x10.Idx → EReal)
    (x0 x1 : Vec Ideal S5000x10 .f32) (x2 : Vec Ideal S5000x1 .f32) (x3 : Vec Ideal S1x10 .f32) (r : ℕ)
    (h0 : ∀ (y : S5000x10.Idx) (i : S50000x10.Idx), (i 0).val = r * 5000 + (y 0).val → (i 1).val = (y 1).val → x0 y = agg i)
    (h1 : ∀ (y : S5000x10.Idx) (i : S50000x10.Idx), (i 0).val = r * 5000 + (y 0).val → (i 1).val = (y 1).val → x1 y = xw i)
    (h2 : ∀ (y : S5000x1.Idx) (i : S50000x1.Idx), (i 0).val = r * 5000 + (y 0).val → (i 1).val = (y 1).val → x2 y = dc i)
    (h3 : ∀ (y : S1x10.Idx) (i : S1x10.Idx), (i 0).val = (y 0).val → (i 1).val = (y 1).val → x3 y = br i)
    (y : S5000x10.Idx) (i : S50000x10.Idx) (hi0 : (i 0).val = r * 5000 + (y 0).val) (hi1 : (i 1).val = (y 1).val) :
    k3_pay1 (F := Ideal) x0 x1 x2 x3 y = lsm10_G agg xw dc br i := by
  obtain ⟨p, q, rfl⟩ : ∃ (p : Fin 5000) (q : Fin 10), y = ix2 p q := ⟨y 0, y 1, eq_ix2 y⟩
  obtain ⟨p', q', rfl⟩ : ∃ (p' : Fin 50000) (q' : Fin 10), i = ix2 p' q' := ⟨i 0, i 1, eq_ix2 i⟩
  have hp : p'.val = r * 5000 + p.val := hi0
  obtain rfl : q' = q := Fin.ext hi1
  rw [lsm10_pay_apply, lsm10_G_apply]
  refine congrArg (fun f => lsm10_row f q') (funext fun k => ?_)
  rw [h0 (ix2 p k) (ix2 p' k) hp rfl, h1 (ix2 p k) (ix2 p' k) hp rfl, h2 (ix2 p (0 : Fin 1)) (ix2 p' (0 : Fin 1)) hp rfl,
    h3 (ix2 (0 : Fin 1) k) (ix2 (0 : Fin 1) k) rfl rfl]

-- the TensorCore's buffer contents when a region is entered, at the extended reals
variable (V : (c : Dev nD) → (b : Ref sig .tc) → Buf (Elt Ideal) ((c : Thread nD τ).loc b))

/-- What point `t` writes back is block `t` of the whole array's function of the arrays as the region finds them. -/
theorem lsm10_flushed_eq (c : Dev nD) (t : Fin cfg3.N) :
    (dat3 (F := Ideal) V c).flushed 4 t
      = ((cfg3.win 4).blk t).view.read (Elt Ideal) (lsm10_G (V c main_v62) (V c main_v49) (V c main_v14) (V c main_v63)) := by
  show (cfg3.win 4).cut (grid3.coords t) ((dat3 (F := Ideal) V c).after 4 t) = _
  rw [after3_4]
  unfold out3_4
  rw [View.canon_unit_zero lsm10_zeroOffsets]
  simp only [View.ld_unit_zero (S := S5000x10) lsm10_zeroOffsets, View.ld_unit_zero (S := S5000x1) lsm10_zeroOffsets,
    View.ld_unit_zero (S := S1x10) lsm10_zeroOffsets]
  obtain ⟨e00, e01, e10, e11, e20, e21, e30, e31, e40, e41⟩ := lsm10_idx_facts t
  funext j
  refine lsm10_point _ _ _ _ _ _ _ _ t.val ?_ ?_ ?_ ?_ _ _ ?_ ?_
  · intro y i hi0 hi1
    show V c main_v62 (((cfg3.win 0).blk t).view.emb y) = V c main_v62 i
    refine congrArg _ (funext fun a => Fin.ext ?_)
    match a with
    | ⟨0, _⟩ => show win3_0.index t (0 : Fin 2) * 5000 + 1 * (y 0).val = (i 0).val; rw [e00]; omega
    | ⟨1, _⟩ => show win3_0.index t (1 : Fin 2) * 10 + 1 * (y 1).val = (i 1).val; rw [e01]; omega
  · intro y i hi0 hi1
    show V c main_v49 (((cfg3.win 1).blk t).view.emb y) = V c main_v49 i
    refine congrArg _ (funext fun a => Fin.ext ?_)
    match a with
    | ⟨0, _⟩ => show win3_1.index t (0 : Fin 2) * 5000 + 1 * (y 0).val = (i 0).val; rw [e10]; omega
    | ⟨1, _⟩ => show win3_1.index t (1 : Fin 2) * 10 + 1 * (y 1).val = (i 1).val; rw [e11]; omega
  · intro y i hi0 hi1
    show V c main_v14 (((cfg3.win 2).blk t).view.emb y) = V c main_v14 i
    refine congrArg _ (funext fun a => Fin.ext ?_)
    match a with
    | ⟨0, _⟩ => show win3_2.index t (0 : Fin 2) * 5000 + 1 * (y 0).val = (i 0).val; rw [e20]; omega
    | ⟨1, _⟩ => show win3_2.index t (1 : Fin 2) * 1 + 1 * (y 1).val = (i 1).val; rw [e21]; omega
  · intro y i hi0 hi1
    show V c main_v63 (((cfg3.win 3).blk t).view.emb y) = V c main_v63 i
    refine congrArg _ (funext fun a => Fin.ext ?_)
    match a with
    | ⟨0, _⟩ => show win3_3.index t (0 : Fin 2) * 1 + 1 * (y 0).val = (i 0).val; rw [e30]; omega
    | ⟨1, _⟩ => show win3_3.index t (1 : Fin 2) * 10 + 1 * (y 1).val = (i 1).val; rw [e31]; omega
  · show (win3_4.index t (0 : Fin 2) * 5000 + 1 * (j 0).val) = t.val * 5000 + (j 0).val
    rw [e40]; omega
  · show (win3_4.index t (1 : Fin 2) * 10 + 1 * (j 1).val) = (j 1).val
    rw [e41]; omega

/-- An index of the array is in point `t`'s block iff each coordinate is in the block's range on its axis. -/
theorem lsm10_mem_blk (t : Fin cfg3.N) (i : S50000x10.Idx) :
    i ∈ ((cfg3.win 4).blk t).view.set ↔ ∀ a : Fin 2, win3_4.index t a * S5000x10.size a ≤ (i a).val
      ∧ (i a).val < win3_4.index t a * S5000x10.size a + S5000x10.size a := by
  show i ∈ ((View.whole main_v64).slice (win3_4.rect t)).set ↔ _
  rw [View.set_slice_whole, Rect.mem_set_unit]
  exact Iff.rfl

/-- The ten blocks tile the array: row `r` lies in the block of point `r / 5000`. -/
theorem lsm10_cover (i : S50000x10.Idx) :
    ∃ t : Fin cfg3.N, (cfg3.win 4).flush t = true ∧ i ∈ ((cfg3.win 4).blk t).view.set := by
  have hi0 : (i 0).val < 50000 := (i 0).isLt
  have hi1 : (i 1).val < 10 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, e40, e41⟩ := lsm10_idx_facts t
  refine ⟨t, flush3_4 t, ?_⟩
  rw [lsm10_mem_blk]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 10 ≤ (i 1).val ∧ (i 1).val < win3_4.index t (1 : Fin 2) * 10 + 10
    rw [e41]; omega

/-- The array after the region: every row is the logarithm of the softmax of the same row of `agg + xw · d + b`, which is
    the reference's own term on the whole arrays. -/
theorem final3 (c : Dev nD) :
    (dat3 (F := Ideal) V c).arrAt 4 cfg3.N
      = Cert.ReferenceIdeal.Spec.lsm10 (F := Ideal)
          (Cert.ReferenceIdeal.Spec.comb10 (F := Ideal) (V c main_v62) (V c main_v49) (V c main_v14) (V c main_v63)) := by
  rw [lsm10_spec_eq]
  exact (dat3 (F := Ideal) V c).arrAt_eq_of_cover 4 (lsm10_G (V c main_v62) (V c main_v49) (V c main_v14) (V c main_v63))
    (fun t _ => lsm10_flushed_eq V c t) lsm10_cover

end Cert.KernelIdeal.Val

end
-- ==== Proof.KValue.lean ====
/-
  The kernel program's result, read off its run. The run passes nine boundaries: three stretches of host operations,
  the first matrix product, a host stretch, the first combine, the second matrix product, a host stretch, the second
  combine. At each boundary a buffer holds either what a host operation of the stretch computed from the buffers before
  it, or what a region's write-backs left (one whole-array function of the region's input arrays), or what it held
  before. Followed from the launch to the return, the result buffer holds the network of Spec.lean applied to the seven
  arguments: the host operations are the reference's own, a node-number or bias vector reshaped to a column or a row
  is that vector repeated into the column or row, and the low-precision copy of a weight matrix is the matrix itself
  on the extended reals.
-/
import proofs.«109081_j23347442221163_1_alg».proof.Proof.Gen.KernelIdeal.Frame
import proofs.«109081_j23347442221163_1_alg».proof.Proof.Spec
import proofs.«109081_j23347442221163_1_alg».proof.Proof.Region0
import proofs.«109081_j23347442221163_1_alg».proof.Proof.Region1
import proofs.«109081_j23347442221163_1_alg».proof.Proof.Region2
import proofs.«109081_j23347442221163_1_alg».proof.Proof.Region3
import proofs.«109081_j23347442221163_1_alg».proof.Proof.LibKeepdims
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

/-! ## A vector made a column or a row: reshaped, or repeated -/

section Layout

variable {α : Type}

/-- A vector of 50000 entries reshaped to a column is the vector repeated into the column: both read entry `p` at `(p, 0)`. -/
theorem column_cast_eq (v : S50000.Idx → α) (h : S50000.ShapeCasts S50000x1)
    (e : S50000.BroadcastsInDim S50000x1 (![0] : Fin 1 → Fin S50000x1.rank)) :
    shapeCast S50000x1 v h = broadcastInDim S50000x1 ![0] e v := by
  funext j
  obtain ⟨p, u, rfl⟩ : ∃ (p : Fin 50000) (u : Fin 1), j = ix2 p u := ⟨j 0, j 1, eq_ix2 j⟩
  rw [Cert.LibKeepdims.shapeCast_a_a1_apply v h p u,
    broadcastInDim_apply ![0] e v (ix2 p u) (ix1 p) (fun a => by
      match a with
      | ⟨0, _⟩ => rfl)]

/-- A vector of 128 entries reshaped to a row is the vector repeated into the row: both read entry `q` at `(0, q)`. -/
theorem row_cast_eq128 (b : S128.Idx → α) (h : S128.ShapeCasts S1x128)
    (e : S128.BroadcastsInDim S1x128 (![1] : Fin 1 → Fin S1x128.rank)) :
    shapeCast S1x128 b h = broadcastInDim S1x128 ![1] e b := by
  funext j
  rw [shapeCast_addUnit_apply ![128] b h j,
    broadcastInDim_apply ![1] e b j (fun a => j a.succ) (fun a => by
      match a with
      | ⟨0, _⟩ => rfl)]

/-- The same for a vector of 10 entries. -/
theorem row_cast_eq10 (b : S10.Idx → α) (h : S10.ShapeCasts S1x10)
    (e : S10.BroadcastsInDim S1x10 (![1] : Fin 1 → Fin S1x10.rank)) :
    shapeCast S1x10 b h = broadcastInDim S1x10 ![1] e b := by
  funext j
  rw [shapeCast_addUnit_apply ![10] b h j,
    broadcastInDim_apply ![1] e b j (fun a => j a.succ) (fun a => by
      match a with
      | ⟨0, _⟩ => rfl)]

end Layout

/-! ## The host stretches, over any float family -/

section Host

variable {F : FTy → Type} [FloatOps F]
variable (m : (ℓ : Loc nD τ sig) → Buf (Elt F) ℓ) (ρ : Dev nD → PrngReg) (c : Dev nD)

/-! ### At the first matrix product's entry: the graph's quantities, computed from the edge list and the weights -/

theorem entry_src : W3 m ρ c (Proc.devRef .tc main_v1) = Cert.ReferenceIdeal.Spec.src (m ((c : Thread nD τ).loc main_arg1)) := by
  show StableHlo.after hostOps0_2 (StableHlo.after hostOps0_1 (StableHlo.after hostOps0 (W0 m ρ c))) (Proc.devRef .tc main_v1) = _
  after_results_simp
  rfl

theorem entry_dst : W3 m ρ c (Proc.devRef .tc main_v3) = Cert.ReferenceIdeal.Spec.dst (m ((c : Thread nD τ).loc main_arg1)) := by
  show StableHlo.after hostOps0_2 (StableHlo.after hostOps0_1 (StableHlo.after hostOps0 (W0 m ρ c))) (Proc.devRef .tc main_v3) = _
  after_results_simp
  rfl

theorem entry_norm : W3 m ρ c (Proc.devRef .tc main_v30) = Cert.ReferenceIdeal.Spec.norm (Cert.ReferenceIdeal.Spec.src (m ((c : Thread nD τ).loc main_arg1))) (Cert.ReferenceIdeal.Spec.dst (m ((c : Thread nD τ).loc main_arg1))) (m ((c : Thread nD τ).loc main_arg2)) := by
  show StableHlo.after hostOps0_2 (StableHlo.after hostOps0_1 (StableHlo.after hostOps0 (W0 m ρ c))) (Proc.devRef .tc main_v30) = _
  after_results_simp
  rfl

/-- The column of `dinv²`: here the squares reshaped to a column. -/
theorem entry_dcol : W3 m ρ c (Proc.devRef .tc main_v14)
    = shapeCast S50000x1 (mulf (Cert.ReferenceIdeal.Spec.dinv (Cert.ReferenceIdeal.Spec.dst (m ((c : Thread nD τ).loc main_arg1))) (m ((c : Thread nD τ).loc main_arg2))) (Cert.ReferenceIdeal.Spec.dinv (Cert.ReferenceIdeal.Spec.dst (m ((c : Thread nD τ).loc main_arg1))) (m ((c : Thread nD τ).loc main_arg2)))) shapeCasts_S50000_S50000x1 := by
  show StableHlo.after hostOps0_2 (StableHlo.after hostOps0_1 (StableHlo.after hostOps0 (W0 m ρ c))) (Proc.devRef .tc main_v14) = _
  after_results_simp
  rfl

theorem entry_w1 : W3 m ρ c (Proc.devRef .tc main_v31) = truncf .bf16 (m ((c : Thread nD τ).loc main_arg3)) bitsLt_bf16_f32 := by
  show StableHlo.after hostOps0_2 (StableHlo.after hostOps0_1 (StableHlo.after hostOps0 (W0 m ρ c))) (Proc.devRef .tc main_v31) = _
  after_results_simp

theorem entry_w2 : W3 m ρ c (Proc.devRef .tc main_v32) = truncf .bf16 (m ((c : Thread nD τ).loc main_arg5)) bitsLt_bf16_f32 := by
  show StableHlo.after hostOps0_2 (StableHlo.after hostOps0_1 (StableHlo.after hostOps0 (W0 m ρ c))) (Proc.devRef .tc main_v32) = _
  after_results_simp

theorem entry_x : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

theorem entry_b1 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp

theorem entry_b2 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp

/-! ### Between the first matrix product and the first combine: the aggregation of its result, and the bias row -/

theorem mid_agg : W5 m ρ c (Proc.devRef .tc main_v46)
    = Cert.ReferenceIdeal.Spec.agg128 (W4 m ρ c (Proc.devRef .tc main_v33)) (W4 m ρ c (Proc.devRef .tc main_v1)) (W4 m ρ c (Proc.devRef .tc main_v3)) (W4 m ρ c (Proc.devRef .tc main_v30)) := by
  show StableHlo.after hostOps1 (W4 m ρ c) (Proc.devRef .tc main_v46) = _
  after_results_simp
  rfl

theorem mid_brow : W5 m ρ c (Proc.devRef .tc main_v47) = shapeCast S1x128 (W4 m ρ c (Proc.devRef .tc main_arg4)) shapeCasts_S128_S1x128 := by
  show StableHlo.after hostOps1 (W4 m ρ c) (Proc.devRef .tc main_v47) = _
  after_results_simp
  rfl

theorem mid_keep_v33 : W5 m ρ c (Proc.devRef .tc main_v33) = W4 m ρ c (Proc.devRef .tc main_v33) := by
  show StableHlo.after hostOps1 (W4 m ρ c) (Proc.devRef .tc main_v33) = _
  after_results_simp

theorem mid_keep_v14 : W5 m ρ c (Proc.devRef .tc main_v14) = W4 m ρ c (Proc.devRef .tc main_v14) := by
  show StableHlo.after hostOps1 (W4 m ρ c) (Proc.devRef .tc main_v14) = _
  after_results_simp

theorem mid_keep_v32 : W5 m ρ c (Proc.devRef .tc main_v32) = W4 m ρ c (Proc.devRef .tc main_v32) := by
  show StableHlo.after hostOps1 (W4 m ρ c) (Proc.devRef .tc main_v32) = _
  after_results_simp

theorem mid_keep_v1 : W5 m ρ c (Proc.devRef .tc main_v1) = W4 m ρ c (Proc.devRef .tc main_v1) := by
  show StableHlo.after hostOps1 (W4 m ρ c) (Proc.devRef .tc main_v1) = _
  after_results_simp

theorem mid_keep_v3 : W5 m ρ c (Proc.devRef .tc main_v3) = W4 m ρ c (Proc.devRef .tc main_v3) := by
  show StableHlo.after hostOps1 (W4 m ρ c) (Proc.devRef .tc main_v3) = _
  after_results_simp

theorem mid_keep_v30 : W5 m ρ c (Proc.devRef .tc main_v30) = W4 m ρ c (Proc.devRef .tc main_v30) := by
  show StableHlo.after hostOps1 (W4 m ρ c) (Proc.devRef .tc main_v30) = _
  after_results_simp

theorem mid_keep_arg6 : W5 m ρ c (Proc.devRef .tc main_arg6) = W4 m ρ c (Proc.devRef .tc main_arg6) := by
  show StableHlo.after hostOps1 (W4 m ρ c) (Proc.devRef .tc main_arg6) = _
  after_results_simp

/-! ### Between the second matrix product and the second combine -/

theorem late_agg : W8 m ρ c (Proc.devRef .tc main_v62)
    = Cert.ReferenceIdeal.Spec.agg10 (W7 m ρ c (Proc.devRef .tc main_v49)) (W7 m ρ c (Proc.devRef .tc main_v1)) (W7 m ρ c (Proc.devRef .tc main_v3)) (W7 m ρ c (Proc.devRef .tc main_v30)) := by
  show StableHlo.after hostOps3 (W7 m ρ c) (Proc.devRef .tc main_v62) = _
  after_results_simp
  rfl

theorem late_brow : W8 m ρ c (Proc.devRef .tc main_v63) = shapeCast S1x10 (W7 m ρ c (Proc.devRef .tc main_arg6)) shapeCasts_S10_S1x10 := by
  show StableHlo.after hostOps3 (W7 m ρ c) (Proc.devRef .tc main_v63) = _
  after_results_simp
  rfl

theorem late_keep_v49 : W8 m ρ c (Proc.devRef .tc main_v49) = W7 m ρ c (Proc.devRef .tc main_v49) := by
  show StableHlo.after hostOps3 (W7 m ρ c) (Proc.devRef .tc main_v49) = _
  after_results_simp

theorem late_keep_v14 : W8 m ρ c (Proc.devRef .tc main_v14) = W7 m ρ c (Proc.devRef .tc main_v14) := by
  show StableHlo.after hostOps3 (W7 m ρ c) (Proc.devRef .tc main_v14) = _
  after_results_simp

end Host

/-! ## At the extended reals: the regions' write-backs, and the result -/

section AtIdeal

variable (m : (ℓ : Loc nD τ sig) → Buf (Elt Ideal) ℓ) (ρ : Dev nD → PrngReg) (c : Dev nD)

/-- The first matrix product leaves the features times the first weight matrix (its low-precision copy is the matrix
    itself on the extended reals). -/
theorem xw1_eq : W4 m ρ c (Proc.devRef .tc main_v33) = Cert.ReferenceIdeal.Spec.mm128 (F := Ideal) (m ((c : Thread nD τ).loc main_arg0)) (m ((c : Thread nD τ).loc main_arg3)) := by
  refine (W4_arr m ρ c 2).trans ((final0 (V3 m ρ) c).trans ?_)
  show Cert.ReferenceIdeal.Spec.mm128 (F := Ideal) (W3 m ρ c (Proc.devRef .tc main_arg0)) (W3 m ρ c (Proc.devRef .tc main_v31)) = _
  rw [entry_x, entry_w1]
  rfl

theorem r0_keep_v1 : W4 m ρ c (Proc.devRef .tc main_v1) = W3 m ρ c (Proc.devRef .tc main_v1) := W4_of_ne m ρ c main_v1 (by decide)
theorem r0_keep_v3 : W4 m ρ c (Proc.devRef .tc main_v3) = W3 m ρ c (Proc.devRef .tc main_v3) := W4_of_ne m ρ c main_v3 (by decide)
theorem r0_keep_v30 : W4 m ρ c (Proc.devRef .tc main_v30) = W3 m ρ c (Proc.devRef .tc main_v30) := W4_of_ne m ρ c main_v30 (by decide)
theorem r0_keep_v14 : W4 m ρ c (Proc.devRef .tc main_v14) = W3 m ρ c (Proc.devRef .tc main_v14) := W4_of_ne m ρ c main_v14 (by decide)
theorem r0_keep_arg4 : W4 m ρ c (Proc.devRef .tc main_arg4) = W3 m ρ c (Proc.devRef .tc main_arg4) := W4_of_ne m ρ c main_arg4 (by decide)
theorem r0_keep_arg6 : W4 m ρ c (Proc.devRef .tc main_arg6) = W3 m ρ c (Proc.devRef .tc main_arg6) := W4_of_ne m ρ c main_arg6 (by decide)
theorem r0_keep_v32 : W4 m ρ c (Proc.devRef .tc main_v32) = W3 m ρ c (Proc.devRef .tc main_v32) := W4_of_ne m ρ c main_v32 (by decide)

/-- The hidden features: what the first combine leaves. -/
theorem hidden_eq : W6 m ρ c (Proc.devRef .tc main_v48)
    = Cert.ReferenceIdeal.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((final1 (V5 m ρ) c).trans ?_)
  show Cert.ReferenceIdeal.Spec.relu128 (F := Ideal) (Cert.ReferenceIdeal.Spec.comb128 (F := Ideal) (W5 m ρ c (Proc.devRef .tc main_v46)) (W5 m ρ c (Proc.devRef .tc main_v33)) (W5 m ρ c (Proc.devRef .tc main_v14)) (W5 m ρ c (Proc.devRef .tc main_v47))) = _
  rw [mid_agg, mid_keep_v33, mid_keep_v14, mid_brow, xw1_eq, r0_keep_v1, r0_keep_v3, r0_keep_v30, r0_keep_v14, r0_keep_arg4,
    entry_src, entry_dst, entry_norm, entry_dcol, entry_b1, column_cast_eq _ _ Cert.ReferenceIdeal.Gen.bcast_S50000_S50000x1_0,
    row_cast_eq128 _ _ Cert.ReferenceIdeal.Gen.bcast_S128_S1x128_1]
  rfl

theorem r1_keep_v32 : W6 m ρ c (Proc.devRef .tc main_v32) = W5 m ρ c (Proc.devRef .tc main_v32) := W6_of_ne m ρ c main_v32 (by decide)
theorem r1_keep_v1 : W6 m ρ c (Proc.devRef .tc main_v1) = W5 m ρ c (Proc.devRef .tc main_v1) := W6_of_ne m ρ c main_v1 (by decide)
theorem r1_keep_v3 : W6 m ρ c (Proc.devRef .tc main_v3) = W5 m ρ c (Proc.devRef .tc main_v3) := W6_of_ne m ρ c main_v3 (by decide)
theorem r1_keep_v30 : W6 m ρ c (Proc.devRef .tc main_v30) = W5 m ρ c (Proc.devRef .tc main_v30) := W6_of_ne m ρ c main_v30 (by decide)
/-- The column of `dinv²` is an input of the first combine: its array is read, never written back. -/
theorem r1_keep_v14 : W6 m ρ c (Proc.devRef .tc main_v14) = W5 m ρ c (Proc.devRef .tc main_v14) :=
  (W6_arr m ρ c 2).trans (((dat1 (V5 m ρ) c).arrAt_in 2 rfl _).trans (A_eq1 (V5 m ρ) c 2))
theorem r1_keep_arg6 : W6 m ρ c (Proc.devRef .tc main_arg6) = W5 m ρ c (Proc.devRef .tc main_arg6) := W6_of_ne m ρ c main_arg6 (by decide)

/-- The second matrix product leaves the hidden features times the second weight matrix. -/
theorem xw2_eq : W7 m ρ c (Proc.devRef .tc main_v49)
    = Cert.ReferenceIdeal.Spec.mm10 (F := Ideal) (Cert.ReferenceIdeal.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W7_arr m ρ c 2).trans ((final2 (V6 m ρ) c).trans ?_)
  show Cert.ReferenceIdeal.Spec.mm10 (F := Ideal) (W6 m ρ c (Proc.devRef .tc main_v48)) (W6 m ρ c (Proc.devRef .tc main_v32)) = _
  rw [hidden_eq, r1_keep_v32, mid_keep_v32, r0_keep_v32, entry_w2]
  rfl

theorem r2_keep_v1 : W7 m ρ c (Proc.devRef .tc main_v1) = W6 m ρ c (Proc.devRef .tc main_v1) := W7_of_ne m ρ c main_v1 (by decide)
theorem r2_keep_v3 : W7 m ρ c (Proc.devRef .tc main_v3) = W6 m ρ c (Proc.devRef .tc main_v3) := W7_of_ne m ρ c main_v3 (by decide)
theorem r2_keep_v30 : W7 m ρ c (Proc.devRef .tc main_v30) = W6 m ρ c (Proc.devRef .tc main_v30) := W7_of_ne m ρ c main_v30 (by decide)
theorem r2_keep_v14 : W7 m ρ c (Proc.devRef .tc main_v14) = W6 m ρ c (Proc.devRef .tc main_v14) := W7_of_ne m ρ c main_v14 (by decide)
theorem r2_keep_arg6 : W7 m ρ c (Proc.devRef .tc main_arg6) = W6 m ρ c (Proc.devRef .tc main_arg6) := W7_of_ne m ρ c main_arg6 (by decide)

/-- THE RESULT: the result buffer after the run holds the network applied to the seven arguments. -/
theorem result_eq : V9 m ρ c main_v64
    = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 4).trans ((final3 (V8 m ρ) c).trans ?_)
  show Cert.ReferenceIdeal.Spec.lsm10 (F := Ideal) (Cert.ReferenceIdeal.Spec.comb10 (F := Ideal) (W8 m ρ c (Proc.devRef .tc main_v62)) (W8 m ρ c (Proc.devRef .tc main_v49)) (W8 m ρ c (Proc.devRef .tc main_v14)) (W8 m ρ c (Proc.devRef .tc main_v63))) = _
  rw [late_agg, late_keep_v49, late_keep_v14, late_brow, xw2_eq,
    r2_keep_v1, r2_keep_v3, r2_keep_v30, r2_keep_v14, r2_keep_arg6,
    r1_keep_v1, r1_keep_v3, r1_keep_v30, r1_keep_v14, r1_keep_arg6,
    mid_keep_v1, mid_keep_v3, mid_keep_v30, mid_keep_v14, mid_keep_arg6,
    r0_keep_v1, r0_keep_v3, r0_keep_v30, r0_keep_v14, r0_keep_arg6,
    entry_src, entry_dst, entry_norm, entry_dcol, entry_b2, column_cast_eq _ _ Cert.ReferenceIdeal.Gen.bcast_S50000_S50000x1_0,
    row_cast_eq10 _ _ Cert.ReferenceIdeal.Gen.bcast_S10_S1x10_1]
  rfl

end AtIdeal

end Cert.KernelIdeal.Val

end
-- ==== Proof.RefValue.lean ====
/-
  The reference program's result is the network of Spec.lean: its composed term, operation for operation, is that
  composition of whole-array operations (the reference computes the degrees, their inverse square roots and the edge
  coefficients once per layer, each time by the same operations of the same arguments).
-/
import proofs.«109081_j23347442221163_1_alg».proof.Proof.RefRun
import proofs.«109081_j23347442221163_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxRecDepth 1000000 in
set_option maxHeartbeats 4000000 in
/-- The result term of the reference's run is the network applied to the seven arguments. -/
theorem res_eq : RunP.res_main_v99 m c
    = Spec.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold RunP.res_main_v99 Spec.out Spec.hidden Spec.lsm10 Spec.rowmax10 Spec.comb10 Spec.comb128 Spec.relu128 Spec.agg10 Spec.agg128
    Spec.mm10 Spec.mm128 Spec.brow10 Spec.brow128 Spec.dcol Spec.norm Spec.dinv Spec.deg Spec.col Spec.wrap Spec.src Spec.dst
  rfl

end Cert.ReferenceIdeal.RefValue

end
-- ==== Proof.lean ====
/-
  The certificate of a two-layer graph convolution network (50000 nodes, 1.6 million weighted edges, 128 input and
  hidden features, 10 classes): a kernel program that does the two dense products and the two per-node combines in
  pipelined regions of ten row blocks each, and leaves the edge gathers and scatter-sums to host operations, against a
  reference that is host operations throughout.

  Both compute, on the extended reals, the same composition of whole-array operations (Spec.lean):
      out = logsoftmax (conv (relu (conv (x · W1) b1) · W2) b2),    conv xw b = agg xw + xw · dinv² + b,
  with the degrees, `dinv` and the edge coefficients functions of the edge list and the edge weights alone. The kernel's
  side is read off its run boundary by boundary (KValue.lean over the four regions' whole-array values, Region0–3.lean);
  the reference's result term is that composition operation for operation (RefValue.lean). No law of arithmetic beyond
  the reading of each operation at an index is used, so the precondition (finite inputs) is never opened.
  The ideal pass rewrote nothing: the kernel's idealization is its own text read at the extended reals.
-/
import proofs.«109081_j23347442221163_1_alg».proof.Defs
import proofs.«109081_j23347442221163_1_alg».proof.Proof.Gen.Kernel
import proofs.«109081_j23347442221163_1_alg».proof.Proof.Gen.Kernel.Frame
import proofs.«109081_j23347442221163_1_alg».proof.Proof.Gen.KernelIdeal
import proofs.«109081_j23347442221163_1_alg».proof.Proof.Gen.KernelIdeal.Frame
import proofs.«109081_j23347442221163_1_alg».proof.Proof.Gen.ReferenceIdeal
import proofs.«109081_j23347442221163_1_alg».proof.Proof.Gen.Pre_finite_inputs
import proofs.«109081_j23347442221163_1_alg».proof.Proof.KRun
import proofs.«109081_j23347442221163_1_alg».proof.Proof.KValue
import proofs.«109081_j23347442221163_1_alg».proof.Proof.RefRun
import proofs.«109081_j23347442221163_1_alg».proof.Proof.RefValue
import Idealize.ShloMosaic.Adequacy
import Idealize.ShloMosaic.Init

noncomputable section

namespace Cert.Proof

open Idealize.ShloMosaic Idealize.SL.Sem

/-- The kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Nothing was rewritten by the ideal pass. -/
theorem preserves : Cert.preserves_Kernel_KernelIdeal := trivial

/-- From memories agreeing on the seven arguments both programs end with the network's value of those arguments. -/
theorem algebraic : Cert.algebraic_KernelIdeal_ReferenceIdeal := by
  intro m ρ m' ρ' _ hagree
  refine ⟨fun c => Cert.ReferenceIdeal.Spec.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Val.result_eq m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.res_eq m' c, (hagree c).1, (hagree c).2.1, (hagree c).2.2.1, (hagree c).2.2.2.1,
      (hagree c).2.2.2.2.1, (hagree c).2.2.2.2.2.1, (hagree c).2.2.2.2.2.2]

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
